-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x512 : Shape := ⟨2, ![1, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x2048.size a
  hwx0_3 : ∀ i : grid0.Coords, EltTy.bits .f32 = 32 ∨ (Rect.block (s := S4096x2048) S512x512.size (cc0_transform_3 i) (hinb0_3 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.BlockProduct.lean ====
/-
  One grid point's arithmetic, read at an entry of the 512 × 512 output block.

  The body loads a 512 × 2048 block of activation rows, a 512 × 2048 block of weight rows and a
  1 × 512 strip of the bias, narrows the two matrix blocks to bf16 (the identity on extended reals),
  multiplies them on the matrix unit into a zero accumulator contracting the second axis of both, and
  adds the bias strip broadcast down the 512 rows. So entry (p, q) of what it stores is

      Σ_{k < 2048} xblk[p, k] · wblk[q, k]  +  bblk[0, q].

  The matrix product is read at an index exactly as a host `dot_general` with one contracted axis is:
  the contraction index is its one coordinate, and the operand indices at output (p, q) and
  contraction k are (p, k) on the left and (q, k) on the right.
-/
import proofs.«147820_j38749194944771_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The block product's operand indices -/

/-- Left operand, row axis: the output's row. -/
theorem lhs_row (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- Left operand, feature axis: the contraction coordinate. -/
theorem lhs_feat (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- Right operand, row axis: the output's COLUMN (the weights are stored output-major). -/
theorem rhs_row (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- Right operand, feature axis: the contraction coordinate. -/
theorem rhs_feat (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry (p, k) of a 512 × 2048 block. -/
abbrev inAt (p : Fin 512) (k : Fin 2048) : S512x2048.Idx := ix2 p k
/-- Entry (0, q) of the 1 × 512 bias strip. -/
abbrev stripAt (q : Fin 512) : S1x512.Idx := ix2 (0 : Fin 1) q

/-! ## The matrix product into zero, at an entry -/

/-- Entry (p, q) of the block product into the zero accumulator is the dot product of row p of the left block with
    row q of the right block. -/
theorem product_apply (a b : FVec Ideal S512x2048 .bf16) (p q : Fin 512) :
    matmul dot_S512x2048_S512x2048_S512x512_1_1_0_0_n_n none a b (constant S512x512 .f32 0x00000000#32) (ix2 p q)
      = ∑ k : Fin 2048, a (inAt p k) * b (inAt q k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = inAt p k := funext fun d => Fin.ext (by
    match d with
    | ⟨0, _⟩ => exact lhs_row _ _
    | ⟨1, _⟩ => exact (lhs_feat _ _).trans hk)
  have er : dot_S512x2048_S512x2048_S512x512_1_1_0_0_n_n.rhsIdx (ix2 p q) ((contrEquiv1 dot_S512x2048_S512x2048_S512x512_1_1_0_0_n_n 2048 rfl rfl).symm k) = inAt q k := funext fun d => Fin.ext (by
    match d with
    | ⟨0, _⟩ => exact rhs_row _ _
    | ⟨1, _⟩ => exact (rhs_feat _ _).trans hk)
  rw [el, er]

/-! ## The bias strip broadcast down the rows, at an entry -/

/-- The strip re-cast to its own shape and broadcast to 512 rows reads, at (p, q), the strip's entry q. -/
theorem strip_apply (s : FVec Ideal S1x512 .f32) (p q : Fin 512) :
    broadcastTo S512x512 (shapeCast S1x512 s shapeCasts_S1x512_S1x512) broadcasts_S1x512_S512x512 (ix2 p q) = s (stripAt q) := by
  rw [shapeCast_self]
  exact broadcastTo_apply s broadcasts_S1x512_S512x512 (ix2 p q) (stripAt q) (fun d => match d with
    | ⟨0, _⟩ => by show (0 : Nat) = if (1 : Nat) = 1 then 0 else p.val; rw [if_pos rfl]
    | ⟨1, _⟩ => by show q.val = if (512 : Nat) = 1 then 0 else q.val; rw [if_neg (by decide)])

/-! ## The whole payload, at an entry -/

/-- What the body stores, at entry (p, q) of the output block: the dot product of the loaded activation row p with
    the loaded weight row q, plus the loaded bias entry q. -/
theorem payload_apply (x0 x1 : Vec Ideal S512x2048 .f32) (x2 : Vec Ideal S1x512 .f32) (p q : Fin 512) :
    k0_pay1 x0 x1 x2 (ix2 p q) = (∑ k : Fin 2048, x0 (inAt p k) * x1 (inAt q k)) + x2 (stripAt q) := by
  unfold k0_pay1
  refine (addf_apply _ _ (ix2 p q)).trans ?_
  refine congrArg₂ (· + ·) ((product_apply _ _ p q).trans ?_) (strip_apply x2 p q)
  rfl

end Cert.KernelIdeal.BlockValue

end
-- ==== Proof.AffineSpec.lean ====
/-
  The value both programs compute, written once as a function of the three argument arrays over the
  extended reals:

      out[n, o] = (Σ_{k < 2048} x[n, k] · w[o, k]) + b[o]        n < 4096, o < 2048.

  A dense layer: row n of the activations against row o of the weights (the weights are stored
  output-major, so the contraction runs along the second axis of BOTH operands), then the bias of
  column o added to the finished dot product. The sum is over the extended reals, where + and · are
  commutative and associative but not distributive at the infinities; nothing below rearranges it, so
  no finiteness of the inputs is ever used.
-/
import Idealize.ShloMosaic.PureOps.Ideal
import Idealize.ShloMosaic.Lib.ValueIdx

noncomputable section

open scoped BigOperators

namespace Cert.Dense

open Idealize.ShloMosaic Idealize.ShloMosaic.ValueIdx

/-- Activations and result: 4096 rows of 2048. -/
abbrev Act : Shape := ⟨2, ![4096, 2048]⟩
/-- Weights: 2048 output rows of 2048 input features. -/
abbrev Wgt : Shape := ⟨2, ![2048, 2048]⟩
/-- Bias: one entry per output column. -/
abbrev Bia : Shape := ⟨1, ![2048]⟩

/-- Entry (n, k) of the activations. -/
abbrev actAt (n : Fin 4096) (k : Fin 2048) : Act.Idx := ix2 n k
/-- Entry (o, k) of the weights. -/
abbrev wgtAt (o : Fin 2048) (k : Fin 2048) : Wgt.Idx := ix2 o k
/-- Entry o of the bias. -/
abbrev biaAt (o : Fin 2048) : Bia.Idx := ix1 o

/-- The dense layer at result index `i = (n, o)`: the dot product of activation row `n` with weight row `o`,
    plus bias entry `o`. -/
def affine (x : Act.Idx → EReal) (w : Wgt.Idx → EReal) (b : Bia.Idx → EReal) : Act.Idx → EReal :=
  fun i => (∑ k : Fin 2048, x (actAt ⟨(i 0).val, idx2_lt0 i⟩ k) * w (wgtAt ⟨(i 1).val, idx2_lt1 i⟩ k))
    + b (biaAt ⟨(i 1).val, idx2_lt1 i⟩)

/-- The same at explicit coordinates. -/
theorem affine_ix2 (x : Act.Idx → EReal) (w : Wgt.Idx → EReal) (b : Bia.Idx → EReal) (n : Fin 4096) (o : Fin 2048) :
    affine x w b (ix2 n o) = (∑ k : Fin 2048, x (actAt n k) * w (wgtAt o k)) + b (biaAt o) := rfl

end Cert.Dense

end
-- ==== Proof.KernelAffine.lean ====
/-
  The kernel's result array after the run is the dense layer of the specification.

  The grid is 8 × 4. Point (g, h) stages activation rows 512g … 512g+511 (all 2048 features), weight
  rows 512h … 512h+511 (all 2048 features) and bias entries 512h … 512h+511 — the bias first laid
  out by the host as one row of 2048 —, and writes back the 512 × 512 block of the result whose
  corner is (512g, 512h). Entry (p, q) of that block is, by the body's arithmetic,

      Σ_k xblk[p, k] · wblk[q, k] + bblk[0, q]  =  Σ_k x[512g+p, k] · w[512h+q, k] + b[512h+q],

  which is the specification at array index (512g+p, 512h+q): every point writes back its block of
  ONE whole-array function. The 32 blocks tile the 4096 × 2048 result (row r, column s lies in the
  block of point (r / 512, s / 512)), so the array ends holding that function everywhere.
-/
import proofs.«147820_j38749194944771_1_alg».proof.Proof.Gen.KernelIdeal.Value
import proofs.«147820_j38749194944771_1_alg».proof.Proof.BlockProduct
import proofs.«147820_j38749194944771_1_alg».proof.Proof.AffineSpec
import Idealize.ShloMosaic.Lib.Pipeline.Value
import Idealize.ShloMosaic.Lib.StableHlo.Run

noncomputable section

open scoped BigOperators

namespace Cert.KernelIdeal.DenseValue

open Cert.KernelIdeal Cert.KernelIdeal.Gen Cert.KernelIdeal.BlockValue Idealize.ShloMosaic Idealize.ShloMosaic.TcCoe Idealize.SL.Sem
open Idealize.ShloMosaic.ValueIdx Idealize.ShloMosaic.StableHlo
open Idealize.ShloMosaic.Pipeline (Dat)
open Cert.Dense

variable (m : (ℓ : Loc nD τ sig) → Buf (Elt Ideal) ℓ) (ρ : Dev nD → PrngReg)

/-- The body's loads and its store go through the whole staging buffer: offsets zero on both axes. -/
theorem offsets_zero : (![0, 0] : Fin 2 → Nat) = fun _ => 0 := funext fun a => by fin_cases a <;> rfl

/-! ## Which block each window holds at a point -/

/-- Over the 32 grid points: the activation block follows the output block's row index and spans all features; the
    weight block's row index is the output block's COLUMN index, all features; the bias strip sits in the one row at
    the output block's column index; and the output's block indices range over 8 × 4. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every one of the 8 × 4 output blocks is some point's. -/
theorem block_onto : ∀ (g : Fin 8) (h : Fin 4), ∃ t : Fin cfg0.N, win0_3.index t = ![g.val, h.val] :=
  (by decide +kernel : ∀ (g : Fin 8) (h : Fin 4), ∃ t : Fin grid0.N, win0_3.index t = ![g.val, h.val])

/-! ## The bias as the region finds it -/

/-- The array the bias window stages is the host's reshape of the bias to one row. -/
theorem bias_row (c : Dev nD) :
    (V m c main_v0 : S1x2048.Idx → EReal) = shapeCast S1x2048 (m ((c : Thread nD τ).loc main_arg2)) shapeCasts_S2048_S1x2048 := by
  dsimp only [Gen.V, Gen.hostOps0]
  after_results
  rfl

/-- Entry (0, o) of that row is bias entry o. -/
theorem bias_row_apply (c : Dev nD) (j : S1x2048.Idx) (o : Fin 2048) (ho : (j 1).val = o.val) :
    (V m c main_v0 : S1x2048.Idx → EReal) j = m ((c : Thread nD τ).loc main_arg2) (biaAt o) := by
  rw [bias_row]
  refine shapeCast_apply _ shapeCasts_S2048_S1x2048 j (biaAt o) ?_
  rw [Shape.rowMajor_val_one, Shape.rowMajor_val_two]
  have h0 : (j 0).val < 1 := (j 0).isLt
  show o.val = (j 0).val * 2048 + (j 1).val
  omega

/-! ## What a point writes back -/

/-- The dense layer of the argument arrays as launched. -/
abbrev result (c : Dev nD) : S4096x2048.Idx → EReal :=
  affine (m ((c : Thread nD τ).loc main_arg0)) (m ((c : Thread nD τ).loc main_arg1)) (m ((c : Thread nD τ).loc main_arg2))

/-- Point `t` writes back block `t` of the dense layer. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero offsets_zero]
  simp only [View.ld_unit_zero (S := S512x2048) offsets_zero, View.ld_unit_zero (S := S1x512) offsets_zero]
  obtain ⟨e0, e1, e2, e3, e4, e5, e6, e7⟩ := block_indices t
  funext j
  obtain ⟨p, q, rfl⟩ : ∃ (p q : Fin 512), j = ix2 p q := ⟨j 0, j 1, eq_ix2 j⟩
  show k0_pay1 (iblk m c 0 t) (iblk m c 1 t) (iblk m c 2 t) (ix2 p q) = result m c (((cfg0.win 3).blk t).view.emb (ix2 p q))
  refine (payload_apply (iblk m c 0 t) (iblk m c 1 t) (iblk m c 2 t) p q).trans ?_
  -- the three loaded entries are the array entries the output's rectangle names: a block's coordinate is always
  -- (block index) × (block extent) + (coordinate inside the block)
  refine congrArg₂ (· + ·) (Finset.sum_congr rfl fun k _ => congrArg₂ (· * ·) ?_ ?_) ?_
  · -- activation block, entry (p, k): array row 512g + p, feature k
    show V m c main_arg0 (((cfg0.win 0).blk t).view.emb (inAt p k)) = _
    rw [V_main_arg0]
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 2048 + 1 * k.val = k.val; omega
  · -- weight block, entry (q, k): array row 512h + q, feature k
    show V m c main_arg1 (((cfg0.win 1).blk t).view.emb (inAt q k)) = _
    rw [V_main_arg1]
    refine congrArg _ (funext fun a => Fin.ext ?_)
    match a with
    | ⟨0, _⟩ => show win0_1.index t (0 : Fin 2) * 512 + 1 * q.val = win0_3.index t (1 : Fin 2) * 512 + 1 * q.val; omega
    | ⟨1, _⟩ => show win0_1.index t (1 : Fin 2) * 2048 + 1 * k.val = k.val; omega
  · -- bias strip, entry (0, q): entry 512h + q of the bias laid out as one row
    show (V m c main_v0 : S1x2048.Idx → EReal) (((cfg0.win 2).blk t).view.emb (stripAt q)) = _
    exact bias_row_apply m c _ _ (by
      show win0_2.index t (1 : Fin 2) * 512 + 1 * q.val = win0_3.index t (1 : Fin 2) * 512 + 1 * q.val; omega)

/-! ## The blocks tile the result -/

/-- An index of the result is in point `t`'s block iff each coordinate lies in the block's range on its axis. -/
theorem mem_block (t : Fin cfg0.N) (i : S4096x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

/-- Every index (r, s) of the result lies in the block of the point whose output block is (r / 512, s / 512), and
    every point writes its block back. -/
theorem covered (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ := block_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-! ## The result array, and the run -/

/-- After the last point the result array holds the dense layer everywhere. -/
theorem final (c : Dev nD) : (dats m 0 c).arrAt 3 cfg0.N = result m c :=
  (dats m 0 c).arrAt_eq_of_cover 3 (result m c) (fun t _ => flushed_eq m c t) covered

/-- Every weakly fair execution of the kernel's program terminates with the result array at the dense layer of the
    arguments as launched, and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.DenseValue

end
-- ==== Proof.ReferenceAffine.lean ====
/-
  The reference's result is the dense layer of the specification.

  Its program is a `dot_general` contracting the second axis of the activations with the second axis
  of the weights, the bias broadcast first to one row and then down the 4096 rows, and an add. Read
  at result index (n, o), stage by stage: the product is Σ_k x[n, k] · w[o, k], the twice-broadcast
  bias is b[o], and the add is the extended reals' +. That is the specification's formula term for
  term; the only work is naming the operand indices by their coordinates.
-/
import proofs.«147820_j38749194944771_1_alg».proof.Proof.Gen.ReferenceIdeal.Read
import proofs.«147820_j38749194944771_1_alg».proof.Proof.AffineSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Dense

/-- The reference's last stage, as a whole array, is the dense layer of its three arguments. -/
theorem stage_eq_affine (x : (⟨S4096x2048, .f32⟩ : BufTy).Contents (Elt Ideal)) (w : (⟨S2048x2048, .f32⟩ : BufTy).Contents (Elt Ideal))
    (b : (⟨S2048, .f32⟩ : BufTy).Contents (Elt Ideal)) :
    val_main_v3 (F := Ideal) x w b = affine x w b := by
  funext i
  -- the product's left operand at (n, o), k is activation entry (n, k) …
  have el : ∀ k : Fin 2048, lidx_main_v0 i k = actAt ⟨(i 0).val, idx2_lt0 i⟩ k := fun k =>
    funext fun a => Fin.ext (by match a with | ⟨0, _⟩ => rfl | ⟨1, _⟩ => rfl)
  -- … its right operand weight entry (o, k) …
  have er : ∀ k : Fin 2048, ridx_main_v0 i k = wgtAt ⟨(i 1).val, idx2_lt1 i⟩ k := fun k =>
    funext fun a => Fin.ext (by match a with | ⟨0, _⟩ => rfl | ⟨1, _⟩ => rfl)
  -- … and the bias, broadcast to a row and then down the rows, is read at its entry o.
  have eb : idx_main_v1 (idx_main_v2 i) = biaAt ⟨(i 1).val, idx2_lt1 i⟩ :=
    funext fun a => Fin.ext (by match a with | ⟨0, _⟩ => rfl)
  rw [val_main_v3_apply, val_main_v0_apply, val_main_v2_apply, val_main_v1_apply]
  simp only [el, er, eb]
  rfl

end Cert.ReferenceIdeal.RefValue

end
-- ==== Proof.lean ====
/-
  A dense layer, out = x · wᵀ + b with x : 4096 × 2048, w : 2048 × 2048 (output-major) and b : 2048,
  computed by a tiled kernel and by a single `dot_general` plus a broadcast add.

  Over the extended reals both programs compute, at result index (n, o),

      Σ_{k < 2048} x[n, k] · w[o, k]  +  b[o].

  The kernel walks an 8 × 4 grid of 512 × 512 result blocks; at each point it narrows its activation
  and weight blocks to bf16 (the identity on extended reals), multiplies them into a zero accumulator
  contracting the feature axis of both, and adds the bias strip broadcast down the rows. The reference
  contracts the same axes of the whole arrays and adds the bias broadcast down all 4096 rows. Both sums
  run over the same index in the same arrangement, so the two results are equal term for term; no law
  that fails at the infinities (distributivity, cancellation) is used and the finiteness of the inputs
  is never opened.

  `Proof/AffineSpec.lean` states that function once; `Proof/BlockProduct.lean` reads one grid point's
  arithmetic at an entry of its block; `Proof/KernelAffine.lean` shows each point writes back its block
  of the function and that the blocks tile the result; `Proof/ReferenceAffine.lean` reads the
  reference's stages at an index. The kernel's pipeline makes no rewrite on the way to its idealized
  form, so there is nothing to preserve beyond reading the same text over the extended reals.
-/
import proofs.«147820_j38749194944771_1_alg».proof.Defs
import proofs.«147820_j38749194944771_1_alg».proof.Proof.Gen.Kernel
import proofs.«147820_j38749194944771_1_alg».proof.Proof.Gen.Kernel.Skeleton
import proofs.«147820_j38749194944771_1_alg».proof.Proof.Gen.Kernel.Launch
import proofs.«147820_j38749194944771_1_alg».proof.Proof.Gen.Kernel.Points
import proofs.«147820_j38749194944771_1_alg».proof.Proof.Gen.Kernel.Frame
import proofs.«147820_j38749194944771_1_alg».proof.Proof.Gen.KernelIdeal
import proofs.«147820_j38749194944771_1_alg».proof.Proof.Gen.KernelIdeal.Skeleton
import proofs.«147820_j38749194944771_1_alg».proof.Proof.Gen.KernelIdeal.Launch
import proofs.«147820_j38749194944771_1_alg».proof.Proof.Gen.KernelIdeal.Points
import proofs.«147820_j38749194944771_1_alg».proof.Proof.Gen.KernelIdeal.Frame
import proofs.«147820_j38749194944771_1_alg».proof.Proof.Gen.ReferenceIdeal
import proofs.«147820_j38749194944771_1_alg».proof.Proof.Gen.KernelIdeal.Value
import proofs.«147820_j38749194944771_1_alg».proof.Proof.Gen.ReferenceIdeal.Run
import proofs.«147820_j38749194944771_1_alg».proof.Proof.Gen.ReferenceIdeal.Read
import proofs.«147820_j38749194944771_1_alg».proof.Proof.Gen.Pre_finite_inputs
import proofs.«147820_j38749194944771_1_alg».proof.Proof.KernelAffine
import proofs.«147820_j38749194944771_1_alg».proof.Proof.ReferenceAffine
import Idealize.ShloMosaic.Adequacy
import Idealize.ShloMosaic.Init

noncomputable section

namespace Cert.Proof

open Idealize.ShloMosaic Idealize.SL.Sem Cert.Kernel

/-- The kernel as printed runs to completion and leaves its three arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on x, w and b, the kernel's result array ends at the dense layer of its arguments
    (the blocks tile the result) and the reference's at the dense layer of its own (its stages read at an index):
    the same function of the same arrays. -/
theorem algebraic : Cert.algebraic_KernelIdeal_ReferenceIdeal := by
  intro m ρ m' ρ' _ hagree
  refine ⟨fun c => Cert.KernelIdeal.DenseValue.result m c, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.ReferenceIdeal.RefValue.stage_eq_affine _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
